-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512 : Shape := ⟨1, ![512]⟩
abbrev S65536x256 : Shape := ⟨2, ![65536, 256]⟩
abbrev S65536 : Shape := ⟨1, ![65536]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S65536 : S_.BroadcastsInDim S65536 (![] : Fin 0 → Fin S65536.rank)
  reducesTo_S65536_S_d0 : S65536.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S512x256 .f32) (main_arg1 : IVec S512 32) (main_arg2 : FVec F S65536x256 .f32) (main_arg3 : FVec F S65536 .f32) (main_arg4 : FVec F S512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S65536x256 .f32 := Host.absf main_arg2
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536 .f32 := Host.absf main_arg3
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S512x256 : Shape := ⟨2, ![512, 256]⟩
abbrev S512 : Shape := ⟨1, ![512]⟩
abbrev S65536x256 : Shape := ⟨2, ![65536, 256]⟩
abbrev S65536 : Shape := ⟨1, ![65536]⟩
abbrev S512x65536 : Shape := ⟨2, ![512, 65536]⟩
abbrev S2048x256 : Shape := ⟨2, ![2048, 256]⟩
abbrev S512x2048 : Shape := ⟨2, ![512, 2048]⟩

abbrev nBuf : Space → Nat
  | .hbm => 7
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S65536x256, .f32⟩
  | .hbm, ⟨3, _⟩ => ⟨S65536, .f32⟩
  | .hbm, ⟨4, _⟩ => ⟨S512, .f32⟩
  | .hbm, ⟨5, _⟩ => ⟨S512x256, .bf16⟩
  | .hbm, ⟨6, _⟩ => ⟨S512x65536, .f32⟩
  | .local _ .vmem, ⟨0, _⟩ => ⟨S512x256, .bf16⟩
  | .local _ .vmem, ⟨1, _⟩ => ⟨S2048x256, .f32⟩
  | .local _ .vmem, ⟨2, _⟩ => ⟨S2048x256, .f32⟩
  | .local _ .vmem, ⟨3, _⟩ => ⟨S512x2048, .f32⟩
  | .local _ .vmem, ⟨4, _⟩ => ⟨S512x2048, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  inb_S512x2048_S512x2048_0_0 : ∀ a, (![0, 0] : Fin 2 → Nat) a + S512x2048.size a ≤ S512x2048.size a
  h_S512x2048 : 0 < S512x2048.numel
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .bf16 = 32 ∨ (Rect.block (s := S512x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x65536.size a
  hwx0_2 : ∀ i : grid0.Coords, EltTy.bits .f32 = 32 ∨ (Rect.block (s := S512x65536) S512x2048.size (cc0_transform_2 i) (hinb0_2 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256 : Shape := ⟨2, ![512, 256]⟩
abbrev S512 : Shape := ⟨1, ![512]⟩
abbrev S65536x256 : Shape := ⟨2, ![65536, 256]⟩
abbrev S65536 : Shape := ⟨1, ![65536]⟩
abbrev S512x65536 : Shape := ⟨2, ![512, 65536]⟩

abbrev nBuf : Space → Nat
  | .hbm => 6
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S65536x256, .f32⟩
  | .hbm, ⟨3, _⟩ => ⟨S65536, .f32⟩
  | .hbm, ⟨4, _⟩ => ⟨S512, .f32⟩
  | .hbm, ⟨5, _⟩ => ⟨S512x65536, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩

abbrev nD : Nat := 1
abbrev τ : Topo := Topo.v7x

variable {F : FTy → Type} [FloatOps F]

class Facts₀ : Prop where
  dot_S512x256_S65536x256_S512x65536_1_1_0_0_n_n_wf : DotDims.WF S512x256 S65536x256 S512x65536 [1] [1] [0] [0] [] []

variable [Facts₀]

def dot_S512x256_S65536x256_S512x65536_1_1_0_0_n_n : DotDims S512x256 S65536x256 S512x65536 where
  lhsContracting := [1]
  rhsContracting := [1]
  lhsNonContracting := [0]
  rhsNonContracting := [0]
  lhsBatch := []
  rhsBatch := []
  wf := dot_S512x256_S65536x256_S512x65536_1_1_0_0_n_n_wf

class Facts : Prop extends Facts₀ where

variable [Facts]
-- ==== Proof.Logits.lean ====
/-
  The similarity logits of a batch of 512 feature rows against a memory bank of 65536 feature rows, each row of
  256 features: entry (b, r) of the result is the inner product of row b of the batch with row r of the bank,
  a sum of 256 products. Over the extended reals the sum is taken in a commutative monoid, so neither the order of
  the 256 terms nor any tiling of the bank's rows is visible in it.
-/
import Idealize.ShloMosaic.Lib.ValueIdx

noncomputable section

open scoped BigOperators

namespace Cert.Logits

open Idealize.ShloMosaic Idealize.ShloMosaic.ValueIdx

/-- Entry `(b, r)` of the logits: `∑ k, x[b, k] · f[r, k]`. -/
def logits (x : (⟨2, ![512, 256]⟩ : Shape).Idx → EReal) (f : (⟨2, ![65536, 256]⟩ : Shape).Idx → EReal) :
    (⟨2, ![512, 65536]⟩ : Shape).Idx → EReal :=
  fun i => ∑ k : Fin 256, x (ix2 (i 0) k) * f (ix2 (i 1) k)

/-- The logits at an entry given by its coordinates. -/
theorem logits_ix2 (x : (⟨2, ![512, 256]⟩ : Shape).Idx → EReal) (f : (⟨2, ![65536, 256]⟩ : Shape).Idx → EReal)
    (b : Fin 512) (r : Fin 65536) : logits x f (ix2 b r) = ∑ k : Fin 256, x (ix2 b k) * f (ix2 r k) := rfl

end Cert.Logits

end
-- ==== Proof.RefLogits.lean ====
/-
  The reference computes the logits: its one host operation contracts the feature axis of the batch with the
  feature axis of the bank, which read at entry (b, r) is the sum over k of x[b, k] · f[r, k].
-/
import proofs.«407780_j65403761983943_3_alg».proof.Proof.Gen.ReferenceIdeal.Read
import proofs.«407780_j65403761983943_3_alg».proof.Proof.Logits

noncomputable section

open scoped BigOperators

namespace Cert.RefLogits

open Cert.ReferenceIdeal Cert.ReferenceIdeal.Gen Idealize.ShloMosaic Idealize.ShloMosaic.ValueIdx Cert.Logits

/-- The left operand is read at row `b` of the batch, feature `k`. -/
theorem lidx_eq (i : S512x65536.Idx) (k : Fin 256) : Read.lidx_main_v0 i k = ix2 (i 0) k :=
  funext fun a => Fin.ext (by match a with | ⟨0, _⟩ => rfl | ⟨1, _⟩ => rfl)

/-- The right operand is read at row `r` of the bank, feature `k`. -/
theorem ridx_eq (i : S512x65536.Idx) (k : Fin 256) : Read.ridx_main_v0 i k = ix2 (i 1) k :=
  funext fun a => Fin.ext (by match a with | ⟨0, _⟩ => rfl | ⟨1, _⟩ => rfl)

/-- The reference's contraction is the logits of its two operands. -/
theorem ref_eq (x : (⟨S512x256, .f32⟩ : BufTy).Contents (Elt Ideal)) (f : (⟨S65536x256, .f32⟩ : BufTy).Contents (Elt Ideal)) :
    Read.val_main_v0 (F := Ideal) x f = logits x f := by
  funext i
  rw [Read.val_main_v0_apply]
  unfold logits
  refine Finset.sum_congr rfl fun k _ => ?_
  rw [lidx_eq, ridx_eq]
  rfl

end Cert.RefLogits

end
-- ==== Proof.TileProduct.lean ====
/-
  One tile of the kernel: from the whole batch block (512 rows) and a block of 2048 rows of the bank, the body
  stores the matrix product contracting the feature axis of both. The batch block passes through a shape cast to its
  own shape and the bank block through a change of float format, both the identity on extended reals, and the product
  accumulates into zero: entry (p, q) of the tile is the sum over k of x0[p, k] · x1[q, k].
-/
import proofs.«407780_j65403761983943_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.TileProduct

open Cert.KernelIdeal Cert.KernelIdeal.Gen Idealize.ShloMosaic Idealize.ShloMosaic.ValueIdx

/-- The left operand's row axis follows the output's row. -/
theorem lhs_axis0 (j : S512x2048.Idx) (q : dot_S512x256_S2048x256_S512x2048_1_1_0_0_n_n.contr.Idx) :
    (dot_S512x256_S2048x256_S512x2048_1_1_0_0_n_n.lhsIdx j q 0).val = (j 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
/-- The left operand's feature axis follows the contraction. -/
theorem lhs_axis1 (j : S512x2048.Idx) (q : dot_S512x256_S2048x256_S512x2048_1_1_0_0_n_n.contr.Idx) :
    (dot_S512x256_S2048x256_S512x2048_1_1_0_0_n_n.lhsIdx j q 1).val = (q ⟨0, by decide⟩).val :=
  dot_S512x256_S2048x256_S512x2048_1_1_0_0_n_n.lhsIdx_val_of_single rfl j q
/-- The right operand's row axis follows the output's column. -/
theorem rhs_axis0 (j : S512x2048.Idx) (q : dot_S512x256_S2048x256_S512x2048_1_1_0_0_n_n.contr.Idx) :
    (dot_S512x256_S2048x256_S512x2048_1_1_0_0_n_n.rhsIdx j q 0).val = (j 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
/-- The right operand's feature axis follows the contraction. -/
theorem rhs_axis1 (j : S512x2048.Idx) (q : dot_S512x256_S2048x256_S512x2048_1_1_0_0_n_n.contr.Idx) :
    (dot_S512x256_S2048x256_S512x2048_1_1_0_0_n_n.rhsIdx j q 1).val = (q ⟨0, by decide⟩).val :=
  dot_S512x256_S2048x256_S512x2048_1_1_0_0_n_n.rhsIdx_val_of_single rfl j q

/-- Entry `(p, q)` of the tile the body stores: `∑ k, x0[p, k] · x1[q, k]`. -/
theorem tile_apply (x0 : Vec Ideal S512x256 .bf16) (x1 : Vec Ideal S2048x256 .f32) (p : Fin 512) (q : Fin 2048) :
    k0_pay1 (F := Ideal) x0 x1 (ix2 p q) = ∑ k : Fin 256, (x0 (ix2 p k) : EReal) * (x1 (ix2 q k) : EReal) := by
  unfold k0_pay1
  simp only [matmul]
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 p q) ((contrEquiv1 dot_S512x256_S2048x256_S512x2048_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S512x256_S2048x256_S512x2048_1_1_0_0_n_n.rhsIdx (ix2 p q) ((contrEquiv1 dot_S512x256_S2048x256_S512x2048_1_1_0_0_n_n 256 rfl rfl).symm k) = ix2 q k := funext fun a => Fin.ext (by
    match a with
    | ⟨0, _⟩ => exact rhs_axis0 _ _
    | ⟨1, _⟩ => exact (rhs_axis1 _ _).trans hk)
  rw [el, er, shapeCast_self]
  rfl

end Cert.KernelIdeal.TileProduct

end
-- ==== Proof.Tiles.lean ====
/-
  The kernel's result array, tile by tile. The grid has 32 points; point t reads the whole batch (its block index
  is (0, 0) at every point) and rows 2048·t … 2048·t + 2047 of the bank, and writes back columns
  2048·t … 2048·t + 2047 of the result. Entry (p, q) of the tile is the inner product of batch row p with bank row
  2048·t + q, which is entry (p, 2048·t + q) of the logits: each tile is the restriction of ONE function of the
  arrays. The 32 column ranges partition the 65536 columns, so the array ends holding the logits everywhere.
  The batch the kernel reads is the host's conversion of the argument to a narrower float format, the identity on
  extended reals.
-/
import proofs.«407780_j65403761983943_3_alg».proof.Proof.Gen.KernelIdeal.Value
import proofs.«407780_j65403761983943_3_alg».proof.Proof.TileProduct
import proofs.«407780_j65403761983943_3_alg».proof.Proof.Logits
import Idealize.ShloMosaic.Lib.StableHlo.Run

set_option maxRecDepth 16384

noncomputable section

open scoped BigOperators

namespace Cert.KernelIdeal.Tiles

open Cert.KernelIdeal Cert.KernelIdeal.Gen Idealize.ShloMosaic Idealize.ShloMosaic.TcCoe Idealize.SL.Sem
open Idealize.ShloMosaic.ValueIdx Cert.Logits
open Idealize.ShloMosaic.Pipeline (Dat)

variable (m : (ℓ : Loc nD τ sig) → Buf (Elt Ideal) ℓ) (ρ : Dev nD → PrngReg)

/-- The batch and the bank as the region finds them, as arrays of extended reals. -/
abbrev batch (c : Dev nD) : S512x256.Idx → EReal := V m c main_v0
abbrev bank (c : Dev nD) : S65536x256.Idx → EReal := V m c main_arg2

theorem zero_offsets : (![0, 0] : Fin 2 → Nat) = fun _ => 0 := funext fun a => by fin_cases a <;> rfl

/-- The batch as the region finds it: the host's change of float format leaves every extended real as it is. -/
theorem batch_as_launched (c : Dev nD) :
    batch m c = m ((c : Thread nD τ).loc main_arg0) := by
  show (V m c main_v0 : S512x256.Idx → EReal) = _
  dsimp only [Gen.V, Gen.hostOps0]; after_results; rfl

/-- The bank as the region finds it: no host operation writes it. -/
theorem bank_as_launched (c : Dev nD) : bank m c = m ((c : Thread nD τ).loc main_arg2) := V_main_arg2 m c

/-- The block indices over the grid: the batch's block never moves; the bank's row block is the result's column
    block, which is the point's number. -/
theorem block_indices : ∀ t : Fin cfg0.N, win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) = t.val :=
  (by decide +kernel : ∀ t : Fin grid0.N, _)

/-- What point `t` writes back is block `t` of the logits of the batch and the bank as the region finds them. -/
theorem tile_is_block (c : Dev nD) (t : Fin cfg0.N) :
    (dats m 0 c).flushed 2 t = ((cfg0.win 2).blk t).view.read (Elt Ideal) (logits (batch m c) (bank m c)) := by
  rw [Value.flushed2]
  unfold out0_2
  rw [View.canon_unit_zero zero_offsets]
  simp only [View.ld_unit_zero (S := S512x256) zero_offsets, View.ld_unit_zero (S := S2048x256) zero_offsets]
  obtain ⟨e00, e01, e10, e11, e20, e21⟩ := block_indices t
  funext j
  obtain ⟨p, q, rfl⟩ : ∃ (p : Fin 512) (q : Fin 2048), j = ix2 p q := ⟨j 0, j 1, eq_ix2 j⟩
  show k0_pay1 (iblk m c 0 t) (iblk m c 1 t) (ix2 p q)
    = logits (batch m c) (bank m c) (((cfg0.win 2).blk t).view.emb (ix2 p q))
  refine (TileProduct.tile_apply _ _ p q).trans ?_
  unfold logits
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 256 + 1 * k.val = k.val; omega
  have h1 : ((cfg0.win 1).blk t).view.emb (ix2 q k) = ix2 ((((cfg0.win 2).blk t).view.emb (ix2 p q)) 1) k := by
    funext a; apply Fin.ext
    match a with
    | ⟨0, _⟩ => show win0_1.index t (0 : Fin 2) * 2048 + 1 * q.val = win0_2.index t (1 : Fin 2) * 2048 + 1 * q.val; omega
    | ⟨1, _⟩ => show win0_1.index t (1 : Fin 2) * 256 + 1 * k.val = k.val; omega
  refine congrArg₂ (fun a b : EReal => a * b) ?_ ?_
  · show batch m c (((cfg0.win 0).blk t).view.emb (ix2 p k)) = batch m c _
    exact congrArg (batch m c) h0
  · show bank m c (((cfg0.win 1).blk t).view.emb (ix2 q k)) = bank m c _
    exact congrArg (bank m c) h1

/-- An entry of the result is in point `t`'s block iff each coordinate is in the block's range on its axis. -/
theorem mem_block (t : Fin cfg0.N) (i : S512x65536.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v1).slice (win0_2.rect t)).set ↔ _
  rw [View.set_slice_whole, Rect.mem_set_unit]
  exact Iff.rfl

/-- Every entry of the result is in some point's block: column `r` is in block `r / 2048`. -/
theorem blocks_cover (i : S512x65536.Idx) :
    ∃ t : Fin cfg0.N, (cfg0.win 2).flush t = true ∧ i ∈ ((cfg0.win 2).blk t).view.set := by
  have hi0 : (i 0).val < 512 := (i 0).isLt
  have hi1 : (i 1).val < 65536 := (i 1).isLt
  have hN : cfg0.N = 32 := N_0
  obtain ⟨t, ht⟩ : ∃ t : Fin cfg0.N, t.val = (i 1).val / 2048 := ⟨⟨(i 1).val / 2048, by omega⟩, rfl⟩
  obtain ⟨-, -, -, -, e20, e21⟩ := block_indices t
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The result array after the run is the logits of the argument arrays. -/
theorem result_is_logits (c : Dev nD) :
    (dats m 0 c).arrAt 2 cfg0.N = logits (m ((c : Thread nD τ).loc main_arg0)) (m ((c : Thread nD τ).loc main_arg2)) :=
  ((dats m 0 c).arrAt_eq_of_cover 2 (logits (batch m c) (bank m c)) (fun t _ => tile_is_block m c t) blocks_cover).trans
    (by rw [batch_as_launched m c, bank_as_launched m c])

/-- The kernel's run: every weakly fair execution ends with the result array at the logits and the arguments unchanged. -/
theorem run : θ_run defs (onTc (τ := τ) (main (F := Ideal))) ⟨m, fun _ => 0, ρ⟩ fun r => ∀ c : Dev nD,
      r.2.mem ((c : Thread nD τ).loc main_v1) = logits (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_is_logits m c), (h c).2⟩) (Value.run_blocks m ρ)

end Cert.KernelIdeal.Tiles

end
-- ==== Proof.lean ====
/-
  The similarity logits of a batch against a memory bank, computed by a tiled kernel and by one host contraction.

  The kernel converts the batch (512 × 256) to a narrower float format on the host, then over a grid of 32 points
  multiplies the whole batch with 2048 rows of the bank (65536 × 256) at a time, converting each bank block to the
  narrower format in the body, contracting the feature axis of both and accumulating into zero; point t writes columns
  2048·t … 2048·t + 2047 of the result (512 × 65536). The reference contracts the feature axis of the whole batch with
  that of the whole bank in one host operation.

  On the extended reals a change of float format is the identity and both contractions are the sum over the 256 features
  of x[b, k] · f[r, k], so the two results are the same function of the arguments, entry by entry (`Logits.logits`):
  the reference by reading its contraction at an entry (`RefLogits.ref_eq`), the kernel by reading one tile at an entry
  (`TileProduct.tile_apply`), recognising the tile as a block of the logits and covering the result's columns by the 32
  tiles (`Tiles.run`). No law beyond the definition of the finite sum is used, so the finiteness of the inputs is never
  opened. The idealization rewrote no operation, so `preserves` is trivial; the three frames are the generated frame
  runs (the reference's frame is its run with the result dropped).
-/
import proofs.«407780_j65403761983943_3_alg».proof.Defs
import proofs.«407780_j65403761983943_3_alg».proof.Proof.Gen.Kernel
import proofs.«407780_j65403761983943_3_alg».proof.Proof.Gen.Kernel.Skeleton
import proofs.«407780_j65403761983943_3_alg».proof.Proof.Gen.Kernel.Launch
import proofs.«407780_j65403761983943_3_alg».proof.Proof.Gen.Kernel.Points
import proofs.«407780_j65403761983943_3_alg».proof.Proof.Gen.Kernel.Frame
import proofs.«407780_j65403761983943_3_alg».proof.Proof.Gen.KernelIdeal
import proofs.«407780_j65403761983943_3_alg».proof.Proof.Gen.KernelIdeal.Skeleton
import proofs.«407780_j65403761983943_3_alg».proof.Proof.Gen.KernelIdeal.Launch
import proofs.«407780_j65403761983943_3_alg».proof.Proof.Gen.KernelIdeal.Points
import proofs.«407780_j65403761983943_3_alg».proof.Proof.Gen.KernelIdeal.Frame
import proofs.«407780_j65403761983943_3_alg».proof.Proof.Gen.ReferenceIdeal
import proofs.«407780_j65403761983943_3_alg».proof.Proof.Gen.Pre_finite_inputs
import proofs.«407780_j65403761983943_3_alg».proof.Proof.Gen.KernelIdeal.Value
import proofs.«407780_j65403761983943_3_alg».proof.Proof.Gen.ReferenceIdeal.Run
import proofs.«407780_j65403761983943_3_alg».proof.Proof.Gen.ReferenceIdeal.Read
import proofs.«407780_j65403761983943_3_alg».proof.Proof.Logits
import proofs.«407780_j65403761983943_3_alg».proof.Proof.RefLogits
import proofs.«407780_j65403761983943_3_alg».proof.Proof.TileProduct
import proofs.«407780_j65403761983943_3_alg».proof.Proof.Tiles
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the logits of the batch and the bank: the kernel tile by tile, the reference in one
    contraction of arguments that agree with the kernel's. -/
theorem algebraic : Cert.algebraic_KernelIdeal_ReferenceIdeal := by
  intro m ρ m' ρ' _ hagree
  refine ⟨fun c => Cert.Logits.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.RefLogits.ref_eq, (hagree c).1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
